-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x32x64 : Shape := ⟨4, ![4, 10000, 32, 64]⟩
abbrev S64x128 : Shape := ⟨2, ![64, 128]⟩
abbrev S64 : Shape := ⟨1, ![64]⟩
abbrev S_ : Shape := ⟨0, ![]⟩

class Facts : Prop where
  bcast_S_S4x10000x32x64 : S_.BroadcastsInDim S4x10000x32x64 (![] : Fin 0 → Fin S4x10000x32x64.rank)
  reducesTo_S4x10000x32x64_S_d0_1_2_3 : S4x10000x32x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x10000x32x64 .f32) (main_arg1 : FVec F S64x128 .f32) (main_arg2 : FVec F S64 .f32) : IVec S_ 1 :=
  let main_v0 : FVec F S4x10000x32x64 .f32 := Host.absf main_arg0
  let main_cst : FVec F S_ .f32 := constant S_ .f32 0x7F800000#32
  let main_v1 : FVec F S4x10000x32x64 .f32 := broadcastInDim S4x10000x32x64 ![] bcast_S_S4x10000x32x64 main_cst
  let main_v2 : IVec S4x10000x32x64 1 := cmpf .olt main_v0 main_v1
  let main_c : IVec S_ 1 := constantI S_ 1 1#1
  let main_v3 : IVec S_ 1 := (fun x v => Host.reduce IntOp.andi x v reducesTo_S4x10000x32x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x10000x32x64 : Shape := ⟨4, ![4, 10000, 32, 64]⟩
abbrev S64x128 : Shape := ⟨2, ![64, 128]⟩
abbrev S64 : Shape := ⟨1, ![64]⟩
abbrev S4x1x10000x64 : Shape := ⟨4, ![4, 1, 10000, 64]⟩
abbrev S1x400x32x64 : Shape := ⟨4, ![1, 400, 32, 64]⟩
abbrev S1x1x400x64 : Shape := ⟨4, ![1, 1, 400, 64]⟩
abbrev S400x32x64 : Shape := ⟨3, ![400, 32, 64]⟩
abbrev S400x1x64 : Shape := ⟨3, ![400, 1, 64]⟩
abbrev S12800x64 : Shape := ⟨2, ![12800, 64]⟩
abbrev S64x64 : Shape := ⟨2, ![64, 64]⟩
abbrev S1x64 : Shape := ⟨2, ![1, 64]⟩
abbrev S400x64 : Shape := ⟨2, ![400, 64]⟩

abbrev nBuf : Space → Nat
  | .hbm => 4
  | .vmem => 6
  | .smem => 0
  | _ => 0

abbrev bufTy : (tb : Table) → Fin (tcTables nBuf tb) → BufTy
  | .hbm, ⟨0, _⟩ => ⟨S4x10000x32x64, .f32⟩
  | .hbm, ⟨1, _⟩ => ⟨S64x128, .f32⟩
  | .hbm, ⟨2, _⟩ => ⟨S64, .f32⟩
  | .hbm, ⟨3, _⟩ => ⟨S4x1x10000x64, .f32⟩
  | .local _ .vmem, ⟨0, _⟩ => ⟨S1x400x32x64, .f32⟩
  | .local _ .vmem, ⟨1, _⟩ => ⟨S1x400x32x64, .f32⟩
  | .local _ .vmem, ⟨2, _⟩ => ⟨S64x128, .f32⟩
  | .local _ .vmem, ⟨3, _⟩ => ⟨S64, .f32⟩
  | .local _ .vmem, ⟨4, _⟩ => ⟨S1x1x400x64, .f32⟩
  | .local _ .vmem, ⟨5, _⟩ => ⟨S1x1x400x64, .f32⟩
  | _, _ => ⟨S4x10000x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 25], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x400x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x400x32x64_S1x400x32x64_0_0_0_0 : ∀ a, (![0, 0, 0, 0] : Fin 4 → Nat) a + S1x400x32x64.size a ≤ S1x400x32x64.size a
  h_S1x400x32x64 : 0 < S1x400x32x64.numel
  shapeCasts_S1x400x32x64_S400x32x64 : S1x400x32x64.ShapeCasts S400x32x64
  slices_S400x32x64_o0_0_0_S400x1x64 : S400x32x64.Slices ![0, 0, 0] S400x1x64
  broadcasts_S400x1x64_S400x32x64 : S400x1x64.Broadcasts S400x32x64
  shapeCasts_S400x32x64_S12800x64 : S400x32x64.ShapeCasts S12800x64
  inb_S64x128_S64x128_0_0 : ∀ a, (![0, 0] : Fin 2 → Nat) a + S64x128.size a ≤ S64x128.size a
  h_S64x128 : 0 < S64x128.numel
  slices_S64x128_o0_0_S64x64 : S64x128.Slices ![0, 0] S64x64
  slices_S64x128_o0_64_S64x64 : S64x128.Slices ![0, 64] S64x64
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S12800x64 : S1x64.Broadcasts S12800x64
  shapeCasts_S12800x64_S400x32x64 : S12800x64.ShapeCasts S400x32x64
  reduces_S400x32x64_S400x64 : S400x32x64.Reduces [1] S400x64
  shapeCasts_S400x64_S1x1x400x64 : S400x64.ShapeCasts S1x1x400x64
  inb_S1x1x400x64_S1x1x400x64_0_0_0_0 : ∀ a, (![0, 0, 0, 0] : Fin 4 → Nat) a + S1x1x400x64.size a ≤ S1x1x400x64.size a
  h_S1x1x400x64 : 0 < S1x1x400x64.numel
  dot_S12800x64_S64x64_S12800x64_1_0_0_1_n_n_wf : DotDims.WF S12800x64 S64x64 S12800x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x32x64.size a ≤ S4x10000x32x64.size a
  hwx0_0 : ∀ i : grid0.Coords, EltTy.bits .f32 = 32 ∨ (Rect.block (s := S4x10000x32x64) S1x400x32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x400x64.size a ≤ S4x1x10000x64.size a
  hwx0_3 : ∀ i : grid0.Coords, EltTy.bits .f32 = 32 ∨ (Rect.block (s := S4x1x10000x64) S1x1x400x64.size (cc0_transform_3 i) (hinb0_3 i)).WholeWords (EltTy.packing .f32)

variable [Facts₀]

def dot_S12800x64_S64x64_S12800x64_1_0_0_1_n_n : DotDims S12800x64 S64x64 S12800x64 where
  lhsContracting := [1]
  rhsContracting := [0]
  lhsNonContracting := [0]
  rhsNonContracting := [1]
  lhsBatch := []
  rhsBatch := []
  wf := dot_S12800x64_S64x64_S12800x64_1_0_0_1_n_n_wf

abbrev win0_0 : Pipeline.Window sig grid0 :=
  Pipeline.Window.ofSpec (Memref.whole main_arg0) S1x400x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x400x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x10000x32x64 : Shape := ⟨4, ![4, 10000, 32, 64]⟩
abbrev S64x128 : Shape := ⟨2, ![64, 128]⟩
abbrev S64 : Shape := ⟨1, ![64]⟩
abbrev S4x10000x1x64 : Shape := ⟨4, ![4, 10000, 1, 64]⟩
abbrev S4x10000x32x128 : Shape := ⟨4, ![4, 10000, 32, 128]⟩
abbrev S1x1x1x64 : Shape := ⟨4, ![1, 1, 1, 64]⟩
abbrev S_ : Shape := ⟨0, ![]⟩
abbrev S4x10000x64 : Shape := ⟨3, ![4, 10000, 64]⟩
abbrev S4x1x10000x64 : Shape := ⟨4, ![4, 1, 10000, 64]⟩

abbrev nBuf : Space → Nat
  | .hbm => 21
  | .vmem => 0
  | .smem => 0
  | _ => 0

abbrev bufTy : (tb : Table) → Fin (tcTables nBuf tb) → BufTy
  | .hbm, ⟨0, _⟩ => ⟨S4x10000x32x64, .f32⟩
  | .hbm, ⟨1, _⟩ => ⟨S64x128, .f32⟩
  | .hbm, ⟨2, _⟩ => ⟨S64, .f32⟩
  | .hbm, ⟨3, _⟩ => ⟨S4x10000x1x64, .f32⟩
  | .hbm, ⟨4, _⟩ => ⟨S4x10000x32x64, .f32⟩
  | .hbm, ⟨5, _⟩ => ⟨S4x10000x32x64, .f32⟩
  | .hbm, ⟨6, _⟩ => ⟨S4x10000x32x128, .f32⟩
  | .hbm, ⟨7, _⟩ => ⟨S4x10000x32x64, .f32⟩
  | .hbm, ⟨8, _⟩ => ⟨S1x1x1x64, .f32⟩
  | .hbm, ⟨9, _⟩ => ⟨S4x10000x32x64, .f32⟩
  | .hbm, ⟨10, _⟩ => ⟨S4x10000x32x64, .f32⟩
  | .hbm, ⟨11, _⟩ => ⟨S_, .f32⟩
  | .hbm, ⟨12, _⟩ => ⟨S4x10000x32x64, .f32⟩
  | .hbm, ⟨13, _⟩ => ⟨S4x10000x32x64, .i1⟩
  | .hbm, ⟨14, _⟩ => ⟨S_, .f32⟩
  | .hbm, ⟨15, _⟩ => ⟨S4x10000x32x64, .f32⟩
  | .hbm, ⟨16, _⟩ => ⟨S4x10000x32x64, .f32⟩
  | .hbm, ⟨17, _⟩ => ⟨S4x10000x32x64, .f32⟩
  | .hbm, ⟨18, _⟩ => ⟨S_, .f32⟩
  | .hbm, ⟨19, _⟩ => ⟨S4x10000x64, .f32⟩
  | .hbm, ⟨20, _⟩ => ⟨S4x1x10000x64, .f32⟩
  | _, _ => ⟨S4x10000x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  slices_S4x10000x32x64_S4x10000x1x64_0_0_0_0 : S4x10000x32x64.Slices ![0, 0, 0, 0] S4x10000x1x64
  bcast_S4x10000x1x64_S4x10000x32x64_0_1_2_3 : S4x10000x1x64.BroadcastsInDim S4x10000x32x64 (![0, 1, 2, 3] : Fin 4 → Fin S4x10000x32x64.rank)
  concatenates_S4x10000x32x64_S4x10000x32x64_S4x10000x32x128_d3 : Shape.Concatenates [S4x10000x32x64, S4x10000x32x64] S4x10000x32x128 3
  bcast_S64_S1x1x1x64_3 : S64.BroadcastsInDim S1x1x1x64 (![3] : Fin 1 → Fin S1x1x1x64.rank)
  bcast_S1x1x1x64_S4x10000x32x64_0_1_2_3 : S1x1x1x64.BroadcastsInDim S4x10000x32x64 (![0, 1, 2, 3] : Fin 4 → Fin S4x10000x32x64.rank)
  bcast_S_S4x10000x32x64 : S_.BroadcastsInDim S4x10000x32x64 (![] : Fin 0 → Fin S4x10000x32x64.rank)
  reducesTo_S4x10000x32x64_S4x10000x64_d2 : S4x10000x32x64.ReducesTo [2] S4x10000x64
  h_S_ : 0 < S_.numel
  bcast_S4x10000x64_S4x1x10000x64_0_2_3 : S4x10000x64.BroadcastsInDim S4x1x10000x64 (![0, 2, 3] : Fin 3 → Fin S4x1x10000x64.rank)
  dot_S4x10000x32x128_S64x128_S4x10000x32x64_3_1_012_0_n_n_wf : DotDims.WF S4x10000x32x128 S64x128 S4x10000x32x64 [3] [1] [0, 1, 2] [0] [] []

variable [Facts₀]

def dot_S4x10000x32x128_S64x128_S4x10000x32x64_3_1_012_0_n_n : DotDims S4x10000x32x128 S64x128 S4x10000x32x64 where
  lhsContracting := [3]
  rhsContracting := [1]
  lhsNonContracting := [0, 1, 2]
  rhsNonContracting := [0]
  lhsBatch := []
  rhsBatch := []
  wf := dot_S4x10000x32x128_S64x128_S4x10000x32x64_3_1_012_0_n_n_wf

class Facts : Prop extends Facts₀ where

variable [Facts]
-- ==== Proof.Spec.lean ====
/-
  The function both programs compute, index by index, on the extended reals.

  For a point cloud x[p, n, h, ·] in which neighbour h = 0 of every point n is the point itself, the edge feature of
  neighbour h is the 128-vector [x_h − x_0, x_h]; an affine map (W : 64 × 128, b : 64) is applied to it, then the leaky
  rectifier with slope 0.2 (as the float the programs print), and the maximum over the 32 neighbours is kept:

    out[p, 0, n, o] = max_h leaky (Σ_{k < 128} e[p, n, h, k] · W[o, k] + b[o]).

  The sum over the 128 channels is written here as the two half sums a split of W's columns gives:
  Σ_{c < 64} (x_h − x_0)[c] · W[o, c] + Σ_{c < 64} x_h[c] · W[o, 64 + c]. Splitting a finite sum over Fin 128 into its
  two halves is a law of any commutative monoid (`sum_halves`), so nothing here asks the inputs to be finite.
-/
import Idealize.ShloMosaic.PureOps.Ideal
import Idealize.ShloMosaic.PureOps.Ideal.Laws
import Idealize.ShloMosaic.Lib.ValueIdx
import Mathlib.Algebra.BigOperators.Fin

noncomputable section

namespace Cert.EdgeConv

open Idealize.ShloMosaic Idealize.ShloMosaic.ValueIdx

/-- Channel `c` of the first half of the 128 concatenated channels. -/
abbrev lo (c : Fin 64) : Fin 128 := ⟨c.val, by have := c.isLt; omega⟩
/-- Channel `c` of the second half: position `64 + c`. -/
abbrev hi (c : Fin 64) : Fin 128 := ⟨64 + c.val, by have := c.isLt; omega⟩

/-- A sum over the 128 channels is the sum over the first 64 plus the sum over the last 64. -/
theorem sum_halves {M : Type*} [AddCommMonoid M] (f : Fin 128 → M) :
    ∑ k : Fin 128, f k = (∑ c : Fin 64, f (lo c)) + ∑ c : Fin 64, f (hi c) :=
  Fin.sum_univ_add (a := 64) (b := 64) f

/-- The leaky rectifier as both programs spell it: `y` where `y ≥ 0`, else the float 0.2 times `y`. -/
def leaky (y : EReal) : EReal :=
  Scalar.select (FloatOps.cmpf (F := Ideal) (φ := .f32) .oge y (Ideal.ofBits .f32 0x00000000#32)) y
    (Ideal.ofBits .f32 0x3E4CCCCD#32 * y)

/-- The affine map at output channel `o` of neighbour `h`'s edge feature [x_h − x_0, x_h] of point `n` in cloud `p`. -/
def edge (x : (⟨4, ![4, 10000, 32, 64]⟩ : Shape).Idx → EReal) (W : (⟨2, ![64, 128]⟩ : Shape).Idx → EReal)
    (b : (⟨1, ![64]⟩ : Shape).Idx → EReal) (p : Fin 4) (n : Fin 10000) (h : Fin 32) (o : Fin 64) : EReal :=
  (∑ c : Fin 64, (x (ix4 p n h c) - x (ix4 p n 0 c)) * W (ix2 o (lo c)))
    + (∑ c : Fin 64, x (ix4 p n h c) * W (ix2 o (hi c))) + b (ix1 o)

/-- The result array: at (p, 0, n, o) the maximum over the 32 neighbours, from −∞, of the rectified affine map. -/
def G (x : (⟨4, ![4, 10000, 32, 64]⟩ : Shape).Idx → EReal) (W : (⟨2, ![64, 128]⟩ : Shape).Idx → EReal)
    (b : (⟨1, ![64]⟩ : Shape).Idx → EReal) : (⟨4, ![4, 1, 10000, 64]⟩ : Shape).Idx → EReal := fun j =>
  (Finset.univ : Finset (Fin 32)).fold max (Ideal.ofBits .f32 0xFF800000#32)
    (fun h => leaky (edge x W b (j 0) (j 2) h (j 3)))

end Cert.EdgeConv

end
-- ==== Proof.Payload.lean ====
/-
  The kernel body's stored value, read index by index.

  The body loads a [1, 400, 32, 64] block of x (400 points, their 32 neighbours), the whole W and b, flattens the
  (point, neighbour) pairs to 12800 rows, and computes (x_h − x_0) · W[:, :64]ᵀ + x_h · W[:, 64:]ᵀ + b by two matrix
  products into zero accumulators; then the leaky rectifier, the rows regrouped as [400, 32, 64], and the maximum over
  the neighbour axis from −∞. Row r·32 + h of the flat arrays is (point r, neighbour h); a matrix product into a zero
  accumulator is the plain sum over the contracted channel; the transposed half of W at (c, o) is W[o, c] resp.
  W[o, 64 + c]; the reduction over one axis is the fold of max over its 32 coordinates.
-/
import proofs.«145725_j57002805952868_1_alg».proof.Proof.Gen.KernelIdeal.Skeleton
import proofs.«145725_j57002805952868_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.EdgeConv.Body

open Cert.KernelIdeal Cert.KernelIdeal.Gen
open Idealize.ShloMosaic Idealize.ShloMosaic.ValueIdx Cert.EdgeConv

variable {α : Type}

theorem lhs_row (i : S12800x64.Idx) (q : dot_S12800x64_S64x64_S12800x64_1_0_0_1_n_n.contr.Idx) :
    (dot_S12800x64_S64x64_S12800x64_1_0_0_1_n_n.lhsIdx i q 0).val = (i 0).val := by
  unfold DotDims.lhsIdx
  rw [dif_neg (show ¬(0 : Fin S12800x64.rank) ∈ dot_S12800x64_S64x64_S12800x64_1_0_0_1_n_n.lhsBatch by decide), dif_pos (show (0 : Fin S12800x64.rank) ∈ dot_S12800x64_S64x64_S12800x64_1_0_0_1_n_n.lhsNonContracting by decide)]
  rfl
theorem lhs_chan (i : S12800x64.Idx) (q : dot_S12800x64_S64x64_S12800x64_1_0_0_1_n_n.contr.Idx) :
    (dot_S12800x64_S64x64_S12800x64_1_0_0_1_n_n.lhsIdx i q 1).val = (q ⟨0, by decide⟩).val :=
  dot_S12800x64_S64x64_S12800x64_1_0_0_1_n_n.lhsIdx_val_of_single rfl i q
theorem rhs_chan (i : S12800x64.Idx) (q : dot_S12800x64_S64x64_S12800x64_1_0_0_1_n_n.contr.Idx) :
    (dot_S12800x64_S64x64_S12800x64_1_0_0_1_n_n.rhsIdx i q 0).val = (q ⟨0, by decide⟩).val :=
  dot_S12800x64_S64x64_S12800x64_1_0_0_1_n_n.rhsIdx_val_of_single rfl i q
theorem rhs_col (i : S12800x64.Idx) (q : dot_S12800x64_S64x64_S12800x64_1_0_0_1_n_n.contr.Idx) :
    (dot_S12800x64_S64x64_S12800x64_1_0_0_1_n_n.rhsIdx i q 1).val = (i 1).val := by
  unfold DotDims.rhsIdx
  rw [dif_neg (show ¬(1 : Fin S64x64.rank) ∈ dot_S12800x64_S64x64_S12800x64_1_0_0_1_n_n.rhsBatch by decide), dif_pos (show (1 : Fin S64x64.rank) ∈ dot_S12800x64_S64x64_S12800x64_1_0_0_1_n_n.rhsNonContracting by decide)]
  rfl

theorem matmul_at (l : FVec Ideal S12800x64 .f32) (w : FVec Ideal S64x64 .f32) (R : Fin 12800) (o : Fin 64) :
    matmul dot_S12800x64_S64x64_S12800x64_1_0_0_1_n_n none l w (constant (F := Ideal) S12800x64 .f32 0x00000000#32) (ix2 R o)
      = ∑ c : Fin 64, l (ix2 R c) * w (ix2 c o) := by
  simp only [matmul]
  rw [Ideal.matmul_constant_zero_apply, ← Equiv.sum_comp (ValueIdx.contrEquiv1 dot_S12800x64_S64x64_S12800x64_1_0_0_1_n_n 64 rfl rfl).symm]
  refine Finset.sum_congr rfl fun k _ => ?_
  have hk := ValueIdx.contrEquiv1_symm_val dot_S12800x64_S64x64_S12800x64_1_0_0_1_n_n 64 rfl rfl k
  have el : dot_S12800x64_S64x64_S12800x64_1_0_0_1_n_n.lhsIdx (ix2 R o) ((ValueIdx.contrEquiv1 dot_S12800x64_S64x64_S12800x64_1_0_0_1_n_n 64 rfl rfl).symm k) = ix2 R k := funext fun a => Fin.ext (by
    match a with
    | ⟨0, _⟩ => exact lhs_row _ _
    | ⟨1, _⟩ => exact (lhs_chan _ _).trans hk)
  have er : dot_S12800x64_S64x64_S12800x64_1_0_0_1_n_n.rhsIdx (ix2 R o) ((ValueIdx.contrEquiv1 dot_S12800x64_S64x64_S12800x64_1_0_0_1_n_n 64 rfl rfl).symm k) = ix2 k o := funext fun a => Fin.ext (by
    match a with
    | ⟨0, _⟩ => exact (rhs_chan _ _).trans hk
    | ⟨1, _⟩ => exact rhs_col _ _)
  rw [el, er]

/-- Row r·32 + h of the flattened [12800, 64] array is entry (r, h) of the [400, 32, 64] one. -/
theorem rows_merge (v : S400x32x64.Idx → α) (hc : S400x32x64.ShapeCasts S12800x64) (r : Fin 400) (h : Fin 32) (c : Fin 64)
    (R : Fin 12800) (hR : R.val = r.val * 32 + h.val) : shapeCast S12800x64 v hc (ix2 R c) = v (ix3 r h c) :=
  shapeCast_apply v hc _ _ (by
    rw [Shape.rowMajor_val_three, Shape.rowMajor_val_two]
    show (r.val * 32 + h.val) * 64 + c.val = R.val * 64 + c.val
    rw [hR])

theorem rows_split (v : S12800x64.Idx → α) (hc : S12800x64.ShapeCasts S400x32x64) (r : Fin 400) (h : Fin 32) (c : Fin 64)
    (R : Fin 12800) (hR : R.val = r.val * 32 + h.val) : shapeCast S400x32x64 v hc (ix3 r h c) = v (ix2 R c) :=
  shapeCast_apply v hc _ _ (by
    rw [Shape.rowMajor_val_three, Shape.rowMajor_val_two]
    show R.val * 64 + c.val = (r.val * 32 + h.val) * 64 + c.val
    rw [hR])

/-- Row r·32 + h of the flattened arrays. -/
abbrev row (r : Fin 400) (h : Fin 32) : Fin 12800 := ⟨r.val * 32 + h.val, by have := r.isLt; have := h.isLt; omega⟩

/-- The first neighbour's row, broadcast back over the neighbours. -/
theorem center_at (v : S400x32x64.Idx → α) (hs : S400x32x64.Slices ![0, 0, 0] S400x1x64) (hb : S400x1x64.Broadcasts S400x32x64)
    (r : Fin 400) (h : Fin 32) (c : Fin 64) :
    broadcastTo S400x32x64 (extractStridedSlice S400x1x64 ![0, 0, 0] v hs) hb (ix3 r h c) = v (ix3 r 0 c) :=
  (broadcastTo_apply _ hb (ix3 r h c) (ix3 r (0 : Fin 1) c) (fun a => by
    match a with
    | ⟨0, _⟩ => show r.val = if (400 : Nat) = 1 then 0 else r.val; rw [if_neg (by decide)]
    | ⟨1, _⟩ => show 0 = if (1 : Nat) = 1 then 0 else h.val; rw [if_pos rfl]
    | ⟨2, _⟩ => show c.val = if (64 : Nat) = 1 then 0 else c.val; rw [if_neg (by decide)])).trans
    (slice3_axis1_apply 0 v hs r (0 : Fin 1) c (0 : Fin 32) rfl)

/-- The body's value before the rectifier, on the 12800 flattened (point, neighbour) rows. -/
def pre (x0 : FVec Ideal S1x400x32x64 .f32) (x1 : FVec Ideal S64x128 .f32) (x2 : FVec Ideal S64 .f32) : FVec Ideal S12800x64 .f32 :=
  addf
    (addf
      (matmul dot_S12800x64_S64x64_S12800x64_1_0_0_1_n_n none
        (shapeCast S12800x64
          (subf (shapeCast S400x32x64 x0 shapeCasts_S1x400x32x64_S400x32x64)
            (broadcastTo S400x32x64
              (extractStridedSlice S400x1x64 ![0, 0, 0] (shapeCast S400x32x64 x0 shapeCasts_S1x400x32x64_S400x32x64)
                slices_S400x32x64_o0_0_0_S400x1x64)
              broadcasts_S400x1x64_S400x32x64))
          shapeCasts_S400x32x64_S12800x64)
        (transpose S64x64 [1, 0] (extractStridedSlice S64x64 ![0, 0] x1 slices_S64x128_o0_0_S64x64) transposes_S64x64_p1_0_S64x64)
        (constant (F := Ideal) S12800x64 .f32 0x00000000#32))
      (matmul dot_S12800x64_S64x64_S12800x64_1_0_0_1_n_n none
        (shapeCast S12800x64 (shapeCast S400x32x64 x0 shapeCasts_S1x400x32x64_S400x32x64) shapeCasts_S400x32x64_S12800x64)
        (transpose S64x64 [1, 0] (extractStridedSlice S64x64 ![0, 64] x1 slices_S64x128_o0_64_S64x64) transposes_S64x64_p1_0_S64x64)
        (constant (F := Ideal) S12800x64 .f32 0x00000000#32)))
    (broadcastTo S12800x64 (shapeCast S1x64 x2 shapeCasts_S64_S1x64) broadcasts_S1x64_S12800x64)

/-- The payload is the maximum over neighbours of the rectified `pre`, regrouped. -/
theorem payload_eq (x0 : FVec Ideal S1x400x32x64 .f32) (x1 : FVec Ideal S64x128 .f32) (x2 : FVec Ideal S64 .f32) :
    k0_pay1 (F := Ideal) x0 x1 x2 =
      shapeCast S1x1x400x64
        (multiReduction .maximumf [1] S400x64
          (shapeCast S400x32x64
            (select (cmpf .oge (pre x0 x1 x2) (broadcast S12800x64 (FloatOps.ofBits (F := Ideal) .f32 0x00000000#32))) (pre x0 x1 x2)
              (mulf (broadcast S12800x64 (FloatOps.ofBits (F := Ideal) .f32 0x3E4CCCCD#32)) (pre x0 x1 x2)))
            shapeCasts_S12800x64_S400x32x64)
          0xFF800000#32 reduces_S400x32x64_S400x64 (.inl rfl) rfl)
        shapeCasts_S400x64_S1x1x400x64 := rfl

/-- `pre` at row r·32 + h and output channel o: the two half sums and the bias. -/
theorem pre_at (x0 : FVec Ideal S1x400x32x64 .f32) (x1 : FVec Ideal S64x128 .f32) (x2 : FVec Ideal S64 .f32)
    (r : Fin 400) (h : Fin 32) (o : Fin 64) (R : Fin 12800) (hR : R.val = r.val * 32 + h.val) :
    pre x0 x1 x2 (ix2 R o) =
      (∑ c : Fin 64, (x0 (ix4 0 r h c) - x0 (ix4 0 r 0 c)) * x1 (ix2 o (lo c)))
        + (∑ c : Fin 64, x0 (ix4 0 r h c) * x1 (ix2 o (hi c))) + x2 (ix1 o) := by
  unfold pre
  rw [addf_apply, addf_apply, matmul_at, matmul_at]
  congr 1
  · congr 1
    · refine Finset.sum_congr rfl fun c _ => ?_
      rw [rows_merge _ _ r h c R hR, subf_apply, center_at, shapeCast_1abc_abc_apply, shapeCast_1abc_abc_apply,
        transpose_ix2_apply, slice2_axis1_apply 0 x1 _ o c (lo c) (by show c.val = 0 + c.val; omega)]
    · refine Finset.sum_congr rfl fun c _ => ?_
      rw [rows_merge _ _ r h c R hR, shapeCast_1abc_abc_apply,
        transpose_ix2_apply, slice2_axis1_apply 64 x1 _ o c (hi c) rfl]
  · rw [broadcastTo_1b_ab_apply, shapeCast_a_1a_apply]

/-- The reduced index (r, o) with neighbour h put back on the dropped axis is (r, h, o). -/
theorem lift_idx (r : Fin 400) (o : Fin 64) (h : Fin 32) :
    (reduces_S400x32x64_S400x64 : S400x32x64.Reduces [1] S400x64).lift (ix2 r o) h = ix3 r h o :=
  funext fun a => Fin.ext (by match a with | ⟨0, _⟩ => rfl | ⟨1, _⟩ => rfl | ⟨2, _⟩ => rfl)

/-- The stored value at point r of the block and output channel o. -/
theorem payload_at (x0 : FVec Ideal S1x400x32x64 .f32) (x1 : FVec Ideal S64x128 .f32) (x2 : FVec Ideal S64 .f32) (r : Fin 400) (o : Fin 64) :
    k0_pay1 (F := Ideal) x0 x1 x2 (ix4 0 0 r o) =
      (Finset.univ : Finset (Fin 32)).fold max (Ideal.ofBits .f32 0xFF800000#32) (fun h => leaky (
        (∑ c : Fin 64, (x0 (ix4 0 r h c) - x0 (ix4 0 r 0 c)) * x1 (ix2 o (lo c)))
          + (∑ c : Fin 64, x0 (ix4 0 r h c) * x1 (ix2 o (hi c))) + x2 (ix1 o))) := by
  rw [payload_eq]
  refine (shapeCast_apply _ shapeCasts_S400x64_S1x1x400x64 (ix4 0 0 r o) (ix2 r o) (by
    rw [Shape.rowMajor_val_two, Shape.rowMajor_val_four]
    show r.val * 64 + o.val = (((0 * 1 + 0) * 400 + r.val) * 64 + o.val)
    omega)).trans ?_
  refine (Ideal.multiReduction_maximumf_single _ _ reduces_S400x32x64_S400x64 _ _ (ix2 r o)).trans ?_
  refine Finset.fold_congr fun (h : Fin 32) _ => ?_
  refine (congrArg _ (lift_idx r o h)).trans ?_
  refine (rows_split _ _ r h o (row r h) rfl).trans ?_
  unfold leaky
  rw [← pre_at x0 x1 x2 r h o (row r h) rfl]
  rfl

end Cert.EdgeConv.Body

end
-- ==== Proof.KernelValue.lean ====
/-
  From blocks to the array: what the kernel's result array holds after the run.

  The grid has 4 × 25 points; point (p, q) stages rows 400q … 400q + 399 of cloud p of x (all neighbours, all channels),
  the whole of W and b, and writes back block (p, 0, q, 0) of the [4, 1, 10000, 64] result. So what point (p, q) stores at
  (0, 0, r, o) of its block lands at (p, 0, 400q + r, o) of the array, and is the specification `G` there; the 100 blocks
  tile the array, so the array is `G` of the arguments.
-/
import proofs.«145725_j57002805952868_1_alg».proof.Proof.Gen.KernelIdeal.Value
import proofs.«145725_j57002805952868_1_alg».proof.Proof.Payload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.EdgeConv.Kernel

open Cert.KernelIdeal Cert.KernelIdeal.Gen Cert.KernelIdeal.Value
open Idealize.ShloMosaic.ValueIdx Cert.EdgeConv

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: x's block follows the result's on the cloud and row-block axes and sits at 0
    elsewhere; W's and b's blocks are the whole arrays; the result's block indices stay in range. -/
theorem idx_facts : ∀ t : Fin cfg0.N,
    win0_0.index t (0 : Fin 4) = win0_3.index t (0 : Fin 4) ∧ win0_0.index t (1 : Fin 4) = win0_3.index t (2 : Fin 4)
    ∧ win0_0.index t (2 : Fin 4) = 0 ∧ win0_0.index t (3 : Fin 4) = 0
    ∧ win0_1.index t (0 : Fin 2) = 0 ∧ win0_1.index t (1 : Fin 2) = 0 ∧ win0_2.index t (0 : Fin 1) = 0
    ∧ win0_3.index t (0 : Fin 4) ≤ 3 ∧ win0_3.index t (1 : Fin 4) = 0 ∧ win0_3.index t (2 : Fin 4) ≤ 24 ∧ win0_3.index t (3 : Fin 4) = 0 :=
  (by decide +kernel : ∀ t : Fin grid0.N, _)

/-- Every block of the result is some point's. -/
theorem idx_onto : ∀ (p : Fin 4) (q : Fin 25), ∃ t : Fin cfg0.N, win0_3.index t = ![p.val, 0, q.val, 0] :=
  (by decide +kernel : ∀ (p : Fin 4) (q : Fin 25), ∃ t : Fin grid0.N, win0_3.index t = ![p.val, 0, q.val, 0])

/-- One point's stored block, entry by entry, is `G` of the arrays the blocks were cut from: x's block holds rows
    400q … of cloud p, W's and b's blocks are the arrays, and the entry (·, ·, r, o) lands at (p, 0, 400q + r, o). -/
theorem block_value (X : S4x10000x32x64.Idx → EReal) (Wt : S64x128.Idx → EReal) (B : S64.Idx → EReal)
    (x0 : FVec Ideal S1x400x32x64 .f32) (x1 : FVec Ideal S64x128 .f32) (x2 : FVec Ideal S64 .f32)
    (p : Fin 4) (q : Fin 25)
    (hx : ∀ (r : Fin 400) (h : Fin 32) (c : Fin 64),
      x0 (ix4 0 r h c) = X (ix4 p ⟨q.val * 400 + r.val, by have := q.isLt; have := r.isLt; omega⟩ h c))
    (hw : x1 = Wt) (hb : x2 = B) (y : S1x1x400x64.Idx) (i : S4x1x10000x64.Idx)
    (hi0 : (i 0).val = p.val) (hi2 : (i 2).val = q.val * 400 + (y 2).val) (hi3 : (i 3).val = (y 3).val) :
    k0_pay1 (F := Ideal) x0 x1 x2 y = G X Wt B i := by
  obtain ⟨u, v, r, o, rfl⟩ : ∃ (u : Fin 1) (v : Fin 1) (r : Fin 400) (o : Fin 64), y = ix4 u v r o :=
    ⟨y 0, y 1, y 2, y 3, eq_ix4 y⟩
  obtain rfl : u = 0 := Subsingleton.elim _ _
  obtain rfl : v = 0 := Subsingleton.elim _ _
  subst hw hb
  rw [Body.payload_at]
  unfold G
  have e0 : i 0 = p := Fin.ext hi0
  have e2 : i 2 = (⟨q.val * 400 + r.val, by have := q.isLt; have := r.isLt; omega⟩ : Fin 10000) := Fin.ext hi2
  have e3 : i 3 = o := Fin.ext hi3
  rw [e0, e2, e3]
  refine Finset.fold_congr fun h _ => ?_
  unfold edge
  simp only [hx]

/-- What point `t` writes back is block `t` of `G` of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  rw [flushed3]
  unfold out0_3
  rw [View.canon_unit_zero hz4]
  simp only [View.ld_unit_zero (S := S1x400x32x64) hz4, View.ld_unit_zero (S := S64x128) hz2, View.ld_unit_zero (S := S64) hz1]
  obtain ⟨e0, e1, e2, e3, e4, e5, e6, e7, e8, e9, e10⟩ := idx_facts t
  funext y
  show k0_pay1 (F := Ideal) (iblk m c 0 t) (iblk m c 1 t) (iblk m c 2 t) y
    = G (V m c main_arg0) (V m c main_arg1) (V m c main_arg2) (((cfg0.win 3).blk t).view.emb y)
  refine block_value (V m c main_arg0) (V m c main_arg1) (V m c main_arg2) (iblk m c 0 t) (iblk m c 1 t) (iblk m c 2 t)
    ⟨win0_3.index t (0 : Fin 4), by omega⟩ ⟨win0_3.index t (2 : Fin 4), by omega⟩ (fun r h k => ?_) (funext fun z => ?_) (funext fun z => ?_)
    y _ ?_ ?_ ?_
  · show V m c main_arg0 (((cfg0.win 0).blk t).view.emb (ix4 0 r h k)) = _
    refine congrArg (V m c main_arg0) (funext fun a => Fin.ext ?_)
    match a with
    | ⟨0, _⟩ => show win0_0.index t (0 : Fin 4) * 1 + 1 * 0 = win0_3.index t (0 : Fin 4); omega
    | ⟨1, _⟩ => show win0_0.index t (1 : Fin 4) * 400 + 1 * r.val = win0_3.index t (2 : Fin 4) * 400 + r.val; omega
    | ⟨2, _⟩ => show win0_0.index t (2 : Fin 4) * 32 + 1 * h.val = h.val; omega
    | ⟨3, _⟩ => show win0_0.index t (3 : Fin 4) * 64 + 1 * k.val = k.val; omega
  · show V m c main_arg1 (((cfg0.win 1).blk t).view.emb z) = V m c main_arg1 z
    refine congrArg (V m c main_arg1) (funext fun a => Fin.ext ?_)
    match a with
    | ⟨0, _⟩ => show win0_1.index t (0 : Fin 2) * 64 + 1 * (z 0).val = (z 0).val; omega
    | ⟨1, _⟩ => show win0_1.index t (1 : Fin 2) * 128 + 1 * (z 1).val = (z 1).val; omega
  · show V m c main_arg2 (((cfg0.win 2).blk t).view.emb z) = V m c main_arg2 z
    refine congrArg (V m c main_arg2) (funext fun a => Fin.ext ?_)
    match a with
    | ⟨0, _⟩ => show win0_2.index t (0 : Fin 1) * 64 + 1 * (z 0).val = (z 0).val; omega
  · show win0_3.index t (0 : Fin 4) * 1 + 1 * (y 0).val = win0_3.index t (0 : Fin 4)
    have hy : (y 0).val < 1 := (y 0).isLt
    omega
  · show win0_3.index t (2 : Fin 4) * 400 + 1 * (y 2).val = win0_3.index t (2 : Fin 4) * 400 + (y 2).val
    omega
  · show win0_3.index t (3 : Fin 4) * 64 + 1 * (y 3).val = (y 3).val
    omega

/-- An index of the result is in point `t`'s block iff each coordinate is in the block's range on its axis. -/
theorem mem_blk (t : Fin cfg0.N) (i : S4x1x10000x64.Idx) :
    i ∈ ((cfg0.win 3).blk t).view.set ↔ ∀ a : Fin 4, win0_3.index t a * S1x1x400x64.size a ≤ (i a).val
      ∧ (i a).val < win0_3.index t a * S1x1x400x64.size a + S1x1x400x64.size a := by
  show i ∈ ((View.whole main_v0).slice (win0_3.rect t)).set ↔ _
  rw [View.set_slice_whole, Rect.mem_set_unit]
  exact Iff.rfl

/-- The blocks tile the result: (p, 0, n, o) is in the block of the point with cloud p and row block n / 400. -/
theorem cover (i : S4x1x10000x64.Idx) :
    ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 10000 := (i 2).isLt
  have hi3 : (i 3).val < 64 := (i 3).isLt
  obtain ⟨t, ht⟩ := idx_onto ⟨(i 0).val, hi0⟩ ⟨(i 2).val / 400, by omega⟩
  have q0 : win0_3.index t (0 : Fin 4) = (i 0).val := congrFun ht 0
  have q1 : win0_3.index t (1 : Fin 4) = 0 := congrFun ht 1
  have q2 : win0_3.index t (2 : Fin 4) = (i 2).val / 400 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 400 ≤ (i 2).val ∧ (i 2).val < win0_3.index t (2 : Fin 4) * 400 + 400; omega
  | ⟨3, _⟩ => show win0_3.index t (3 : Fin 4) * 64 ≤ (i 3).val ∧ (i 3).val < win0_3.index t (3 : Fin 4) * 64 + 64; omega

/-- The result array after the run is `G` of the argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.EdgeConv.Kernel

end
-- ==== Proof.RefValue.lean ====
/-
  The reference, read index by index, is the specification `G`.

  The reference concatenates [x − x₀, x] along the channel axis, contracts the 128 channels against W's second axis,
  adds the bias, rectifies, and reduces with max over the neighbour axis from −∞. Read at (p, 0, n, o):
  the contraction over Fin 128 splits into its two halves (`sum_halves`); on the first half the concatenation reads
  its first piece, x_h − x_0 (the slice of neighbour 0 broadcast back over the neighbours), on the second half its
  second piece, x_h, at channel k − 64; the reduction over one axis is the fold of max over that axis's 32 coordinates.
-/
import proofs.«145725_j57002805952868_1_alg».proof.Proof.Gen.ReferenceIdeal.Read
import proofs.«145725_j57002805952868_1_alg».proof.Proof.Spec
import Idealize.ShloMosaic.Lib.Pipeline.Value
import Idealize.ShloMosaic.Lib.ValueIdx
import Idealize.ShloMosaic.PureOps.Ideal.Laws

noncomputable section

namespace Cert.EdgeConv.Ref

open Cert.ReferenceIdeal Cert.ReferenceIdeal.Gen Cert.ReferenceIdeal.Read
open Idealize.ShloMosaic Idealize.ShloMosaic.ValueIdx Cert.EdgeConv

variable (x : (⟨S4x10000x32x64, .f32⟩ : BufTy).Contents (Elt Ideal)) (W : (⟨S64x128, .f32⟩ : BufTy).Contents (Elt Ideal))
  (b : (⟨S64, .f32⟩ : BufTy).Contents (Elt Ideal))

/-- The weight entry the contraction meets at output (p, n, h, o) and channel k is W[o, k]. -/
theorem weight_idx (p : Fin 4) (n : Fin 10000) (h : Fin 32) (o : Fin 64) (k : Fin 128) :
    ridx_main_v4 (ix4 p n h o) k = ix2 o k :=
  funext fun a => Fin.ext (by match a with | ⟨0, _⟩ => rfl | ⟨1, _⟩ => rfl)

/-- The bias, broadcast twice, is read at the output channel. -/
theorem bias_idx (p : Fin 4) (n : Fin 10000) (h : Fin 32) (o : Fin 64) :
    idx_main_v5 (idx_main_v6 (ix4 p n h o)) = ix1 o :=
  funext fun a => Fin.ext (by match a with | ⟨0, _⟩ => rfl)

/-- On the first 64 channels the concatenation is x_h − x_0. -/
theorem cat_lo (p : Fin 4) (n : Fin 10000) (h : Fin 32) (o : Fin 64) (c : Fin 64) :
    val_main_v3 (F := Ideal) x (lidx_main_v4 (ix4 p n h o) (lo c)) = x (ix4 p n h c) - x (ix4 p n 0 c) := by
  unfold val_main_v3
  refine (concatenate_pair_apply_left _ _ _ concatenates_S4x10000x32x64_S4x10000x32x64_S4x10000x32x128_d3 _ rfl (ix4 p n h c)
    (fun a => by match a with | ⟨0, _⟩ => rfl | ⟨1, _⟩ => rfl | ⟨2, _⟩ => rfl | ⟨3, _⟩ => rfl)).trans ?_
  rw [val_main_v2_apply, val_main_v1_apply, val_main_v0_apply]
  show x _ - x _ = _
  exact congrArg (x (ix4 p n h c) - x ·) (funext fun a => Fin.ext (by
    match a with | ⟨0, _⟩ => rfl | ⟨1, _⟩ => rfl | ⟨2, _⟩ => rfl | ⟨3, _⟩ => rfl))

/-- On the last 64 channels the concatenation is x_h, at the channel less 64. -/
theorem cat_hi (p : Fin 4) (n : Fin 10000) (h : Fin 32) (o : Fin 64) (c : Fin 64) :
    val_main_v3 (F := Ideal) x (lidx_main_v4 (ix4 p n h o) (hi c)) = x (ix4 p n h c) := by
  unfold val_main_v3
  exact concatenate_pair_apply_right _ _ _ concatenates_S4x10000x32x64_S4x10000x32x64_S4x10000x32x128_d3 _ rfl rfl (ix4 p n h c)
    (fun a ha => by match a with | ⟨0, _⟩ => rfl | ⟨1, _⟩ => rfl | ⟨2, _⟩ => rfl | ⟨3, _⟩ => exact absurd rfl ha)
    (by show c.val + 64 = 64 + c.val; omega)

/-- The affine map before the rectifier, at (p, n, h, o). -/
theorem affine_at (p : Fin 4) (n : Fin 10000) (h : Fin 32) (o : Fin 64) :
    val_main_v7 (F := Ideal) x W b (ix4 p n h o) = edge x W b p n h o := by
  rw [val_main_v7_apply, val_main_v4_apply, val_main_v6_apply, val_main_v5_apply, bias_idx, sum_halves]
  simp only [cat_lo, cat_hi, weight_idx]
  rfl

/-- The rectified value at (p, n, h, o). -/
theorem rectified_at (p : Fin 4) (n : Fin 10000) (h : Fin 32) (o : Fin 64) :
    val_main_v12 (F := Ideal) x W b (ix4 p n h o) = leaky (edge x W b p n h o) := by
  rw [val_main_v12_apply, val_main_v9_apply, val_main_v11_apply, val_main_v8_apply, val_main_v10_apply,
    val_main_cst_apply, val_main_cst_0_apply, affine_at]
  rfl

/-- The neighbour axis is the one the reduction drops. -/
theorem reduces_neighbours : S4x10000x32x64.Reduces [2] S4x10000x64 := by decide

/-- The reduced index (p, n, o) with neighbour h put back on the dropped axis is (p, n, h, o). -/
theorem lift_idx (j : S4x1x10000x64.Idx) (h : Fin 32) :
    reduces_neighbours.lift (idx_main_v14 j) h = ix4 (j 0) (j 2) h (j 3) :=
  funext fun a => Fin.ext (by match a with | ⟨0, _⟩ => rfl | ⟨1, _⟩ => rfl | ⟨2, _⟩ => rfl | ⟨3, _⟩ => rfl)

/-- The reference's result array is `G` of its arguments. -/
theorem result_eq : val_main_v14 (F := Ideal) x W b = G x W b := by
  funext j
  rw [val_main_v14_apply]
  unfold val_main_v13
  rw [Host.reduce_eq_fold_single FloatOps.maximumf _ _ reducesTo_S4x10000x32x64_S4x10000x64_d2 reduces_neighbours h_S_]
  unfold G
  show Finset.fold max (Ideal.ofBits .f32 0xFF800000#32) _ _ = _
  refine Finset.fold_congr fun h _ => ?_
  exact (congrArg (val_main_v12 (F := Ideal) x W b) (lift_idx j h)).trans (rectified_at x W b (j 0) (j 2) h (j 3))

end Cert.EdgeConv.Ref

end
-- ==== Proof.lean ====
/-
  The certificate of the neighbourhood-maximum edge convolution: for a point cloud x[p, n, h, ·] whose neighbour h = 0 is
  the point itself, out[p, 0, n, o] = max_h leaky (W[o, ·] · [x_h − x_0, x_h] + b[o]).

  The kernel tiles the points in blocks of 400, flattens (point, neighbour) to rows, and computes the affine map as two
  64-channel matrix products, (x_h − x_0) · W[:, :64]ᵀ + x_h · W[:, 64:]ᵀ; the reference concatenates the 128 channels
  and contracts them at once. On the extended reals a sum over 128 channels is the sum of its two halves in any
  commutative monoid, so the two agree with no appeal to finiteness of the inputs; the rectifier and the maximum over the
  32 neighbours (from −∞) are the same operations on both sides. Spec.lean states the common function `G`;
  RefValue.lean reads the reference as `G`; Payload.lean reads the kernel body's stored block entry by entry and
  KernelValue.lean assembles the blocks into the array. The three frames are the generated ones (the reference's is its
  run with the result dropped); the idealisation rewrote nothing, so `preserves` has no conjunct.
-/
import proofs.«145725_j57002805952868_1_alg».proof.Defs
import proofs.«145725_j57002805952868_1_alg».proof.Proof.Gen.Kernel
import proofs.«145725_j57002805952868_1_alg».proof.Proof.Gen.Kernel.Skeleton
import proofs.«145725_j57002805952868_1_alg».proof.Proof.Gen.Kernel.Launch
import proofs.«145725_j57002805952868_1_alg».proof.Proof.Gen.Kernel.Points
import proofs.«145725_j57002805952868_1_alg».proof.Proof.Gen.Kernel.Frame
import proofs.«145725_j57002805952868_1_alg».proof.Proof.Gen.KernelIdeal
import proofs.«145725_j57002805952868_1_alg».proof.Proof.Gen.KernelIdeal.Skeleton
import proofs.«145725_j57002805952868_1_alg».proof.Proof.Gen.KernelIdeal.Launch
import proofs.«145725_j57002805952868_1_alg».proof.Proof.Gen.KernelIdeal.Points
import proofs.«145725_j57002805952868_1_alg».proof.Proof.Gen.KernelIdeal.Frame
import proofs.«145725_j57002805952868_1_alg».proof.Proof.Gen.ReferenceIdeal
import proofs.«145725_j57002805952868_1_alg».proof.Proof.Gen.Pre_finite_inputs
import proofs.«145725_j57002805952868_1_alg».proof.Proof.Gen.KernelIdeal.Value
import proofs.«145725_j57002805952868_1_alg».proof.Proof.Gen.ReferenceIdeal.Run
import proofs.«145725_j57002805952868_1_alg».proof.Proof.Gen.ReferenceIdeal.Read
import proofs.«145725_j57002805952868_1_alg».proof.Proof.KernelValue
import proofs.«145725_j57002805952868_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at `G` of their (agreeing) arguments. -/
theorem algebraic : Cert.algebraic_KernelIdeal_ReferenceIdeal := by
  intro m ρ m' ρ' _ hagree
  refine ⟨fun c => Cert.EdgeConv.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.EdgeConv.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _).trans ((Cert.EdgeConv.Ref.result_eq _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
